-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S7x7 : Shape := ⟨2, ![7, 7]⟩
abbrev S_ : Shape := ⟨0, ![]⟩

class Facts : Prop where
  bcast_S_S7x7 : S_.BroadcastsInDim S7x7 (![] : Fin 0 → Fin S7x7.rank)
  reducesTo_S7x7_S_d0_1 : S7x7.ReducesTo [0, 1] S_
  h_S_ : 0 < S_.numel

variable [Facts]

def fn_part1 {F : FTy → Type} [FloatOps F] (main_arg4 : FVec F S7x7 .f32) (main_arg5 : FVec F S7x7 .f32) (main_arg6 : FVec F S7x7 .f32) (main_v13 : IVec S_ 1) (main_v16 : IVec S7x7 1) : IVec S_ 1 :=
  let main_c_5 : IVec S_ 1 := constantI S_ 1 1#1
  let main_v17 : IVec S_ 1 := (fun x v => Host.reduce IntOp.andi x v reducesTo_S7x7_S_d0_1 h_S_) main_v16 main_c_5
  let main_v18 : IVec S_ 1 := andi main_v13 main_v17
  let main_v19 : FVec F S7x7 .f32 := Host.absf main_arg4
  let main_cst_6 : FVec F S_ .f32 := constant S_ .f32 0x7F800000#32
  let main_v20 : FVec F S7x7 .f32 := broadcastInDim S7x7 ![] bcast_S_S7x7 main_cst_6
  let main_v21 : IVec S7x7 1 := cmpf .olt main_v19 main_v20
  let main_c_7 : IVec S_ 1 := constantI S_ 1 1#1
  let main_v22 : IVec S_ 1 := (fun x v => Host.reduce IntOp.andi x v reducesTo_S7x7_S_d0_1 h_S_) main_v21 main_c_7
  let main_v23 : IVec S_ 1 := andi main_v18 main_v22
  let main_v24 : FVec F S7x7 .f32 := Host.absf main_arg5
  let main_cst_8 : FVec F S_ .f32 := constant S_ .f32 0x7F800000#32
  let main_v25 : FVec F S7x7 .f32 := broadcastInDim S7x7 ![] bcast_S_S7x7 main_cst_8
  let main_v26 : IVec S7x7 1 := cmpf .olt main_v24 main_v25
  let main_c_9 : IVec S_ 1 := constantI S_ 1 1#1
  let main_v27 : IVec S_ 1 := (fun x v => Host.reduce IntOp.andi x v reducesTo_S7x7_S_d0_1 h_S_) main_v26 main_c_9
  let main_v28 : IVec S_ 1 := andi main_v23 main_v27
  let main_v29 : FVec F S7x7 .f32 := Host.absf main_arg6
  let main_cst_10 : FVec F S_ .f32 := constant S_ .f32 0x7F800000#32
  let main_v30 : FVec F S7x7 .f32 := broadcastInDim S7x7 ![] bcast_S_S7x7 main_cst_10
  let main_v31 : IVec S7x7 1 := cmpf .olt main_v29 main_v30
  let main_c_11 : IVec S_ 1 := constantI S_ 1 1#1
  let main_v32 : IVec S_ 1 := (fun x v => Host.reduce IntOp.andi x v reducesTo_S7x7_S_d0_1 h_S_) main_v31 main_c_11
  let main_v33 : IVec S_ 1 := andi main_v28 main_v32
  main_v33

def fn {F : FTy → Type} [FloatOps F] (main_arg0 : FVec F S7x7 .f32) (main_arg1 : FVec F S7x7 .f32) (main_arg2 : FVec F S7x7 .f32) (main_arg3 : FVec F S7x7 .f32) (main_arg4 : FVec F S7x7 .f32) (main_arg5 : FVec F S7x7 .f32) (main_arg6 : FVec F S7x7 .f32) : IVec S_ 1 :=
  let main_v0 : FVec F S7x7 .f32 := Host.absf main_arg0
  let main_cst : FVec F S_ .f32 := constant S_ .f32 0x7F800000#32
  let main_v1 : FVec F S7x7 .f32 := broadcastInDim S7x7 ![] bcast_S_S7x7 main_cst
  let main_v2 : IVec S7x7 1 := cmpf .olt main_v0 main_v1
  let main_c : IVec S_ 1 := constantI S_ 1 1#1
  let main_v3 : IVec S_ 1 := (fun x v => Host.reduce IntOp.andi x v reducesTo_S7x7_S_d0_1 h_S_) main_v2 main_c
  let main_v4 : FVec F S7x7 .f32 := Host.absf main_arg1
  let main_cst_0 : FVec F S_ .f32 := constant S_ .f32 0x7F800000#32
  let main_v5 : FVec F S7x7 .f32 := broadcastInDim S7x7 ![] bcast_S_S7x7 main_cst_0
  let main_v6 : IVec S7x7 1 := cmpf .olt main_v4 main_v5
  let main_c_1 : IVec S_ 1 := constantI S_ 1 1#1
  let main_v7 : IVec S_ 1 := (fun x v => Host.reduce IntOp.andi x v reducesTo_S7x7_S_d0_1 h_S_) main_v6 main_c_1
  let main_v8 : IVec S_ 1 := andi main_v3 main_v7
  let main_v9 : FVec F S7x7 .f32 := Host.absf main_arg2
  let main_cst_2 : FVec F S_ .f32 := constant S_ .f32 0x7F800000#32
  let main_v10 : FVec F S7x7 .f32 := broadcastInDim S7x7 ![] bcast_S_S7x7 main_cst_2
  let main_v11 : IVec S7x7 1 := cmpf .olt main_v9 main_v10
  let main_c_3 : IVec S_ 1 := constantI S_ 1 1#1
  let main_v12 : IVec S_ 1 := (fun x v => Host.reduce IntOp.andi x v reducesTo_S7x7_S_d0_1 h_S_) main_v11 main_c_3
  let main_v13 : IVec S_ 1 := andi main_v8 main_v12
  let main_v14 : FVec F S7x7 .f32 := Host.absf main_arg3
  let main_cst_4 : FVec F S_ .f32 := constant S_ .f32 0x7F800000#32
  let main_v15 : FVec F S7x7 .f32 := broadcastInDim S7x7 ![] bcast_S_S7x7 main_cst_4
  let main_v16 : IVec S7x7 1 := cmpf .olt main_v14 main_v15
  fn_part1 (F := F) main_arg4 main_arg5 main_arg6 main_v13 main_v16
-- ==== Kernel.lean ====
abbrev S7x7 : Shape := ⟨2, ![7, 7]⟩

abbrev nBuf : Space → Nat
  | .hbm => 8
  | .vmem => 8
  | .smem => 0
  | _ => 0

abbrev bufTy : (tb : Table) → Fin (tcTables nBuf tb) → BufTy
  | .hbm, ⟨0, _⟩ => ⟨S7x7, .f32⟩
  | .hbm, ⟨1, _⟩ => ⟨S7x7, .f32⟩
  | .hbm, ⟨2, _⟩ => ⟨S7x7, .f32⟩
  | .hbm, ⟨3, _⟩ => ⟨S7x7, .f32⟩
  | .hbm, ⟨4, _⟩ => ⟨S7x7, .f32⟩
  | .hbm, ⟨5, _⟩ => ⟨S7x7, .f32⟩
  | .hbm, ⟨6, _⟩ => ⟨S7x7, .f32⟩
  | .hbm, ⟨7, _⟩ => ⟨S7x7, .f32⟩
  | .local _ .vmem, ⟨0, _⟩ => ⟨S7x7, .f32⟩
  | .local _ .vmem, ⟨1, _⟩ => ⟨S7x7, .f32⟩
  | .local _ .vmem, ⟨2, _⟩ => ⟨S7x7, .f32⟩
  | .local _ .vmem, ⟨3, _⟩ => ⟨S7x7, .f32⟩
  | .local _ .vmem, ⟨4, _⟩ => ⟨S7x7, .f32⟩
  | .local _ .vmem, ⟨5, _⟩ => ⟨S7x7, .f32⟩
  | .local _ .vmem, ⟨6, _⟩ => ⟨S7x7, .f32⟩
  | .local _ .vmem, ⟨7, _⟩ => ⟨S7x7, .f32⟩
  | _, _ => ⟨S7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S7x7 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S7x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x7 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S7x7 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S7x7 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S7x7 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  inb_S7x7_S7x7_0_0 : ∀ a, (![0, 0] : Fin 2 → Nat) a + S7x7.size a ≤ S7x7.size a
  h_S7x7 : 0 < S7x7.numel
  iota_S7x7_d0_w32 : S7x7.Iotas .tc 32 [0]
  iota_S7x7_d1_w32 : S7x7.Iotas .tc 32 [1]
  dot_S7x7_S7x7_S7x7_1_0_0_1_n_n_wf : DotDims.WF S7x7 S7x7 S7x7 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S7x7.size a ≤ S7x7.size a
  hwx0_0 : ∀ i : grid0.Coords, EltTy.bits .f32 = 32 ∨ (Rect.block (s := S7x7) S7x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x7.size a ≤ S7x7.size a
  hwx0_1 : ∀ i : grid0.Coords, EltTy.bits .f32 = 32 ∨ (Rect.block (s := S7x7) S7x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x7.size a ≤ S7x7.size a
  hwx0_2 : ∀ i : grid0.Coords, EltTy.bits .f32 = 32 ∨ (Rect.block (s := S7x7) S7x7.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x7.size a ≤ S7x7.size a
  hwx0_3 : ∀ i : grid0.Coords, EltTy.bits .f32 = 32 ∨ (Rect.block (s := S7x7) S7x7.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S7x7.size a ≤ S7x7.size a
  hwx0_4 : ∀ i : grid0.Coords, EltTy.bits .f32 = 32 ∨ (Rect.block (s := S7x7) S7x7.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S7x7.size a ≤ S7x7.size a
  hwx0_5 : ∀ i : grid0.Coords, EltTy.bits .f32 = 32 ∨ (Rect.block (s := S7x7) S7x7.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S7x7.size a ≤ S7x7.size a
  hwx0_6 : ∀ i : grid0.Coords, EltTy.bits .f32 = 32 ∨ (Rect.block (s := S7x7) S7x7.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S7x7.size a ≤ S7x7.size a
  hwx0_7 : ∀ i : grid0.Coords, EltTy.bits .f32 = 32 ∨ (Rect.block (s := S7x7) S7x7.size (cc0_transform_7 i) (hinb0_7 i)).WholeWords (EltTy.packing .f32)

variable [Facts₀]

def dot_S7x7_S7x7_S7x7_1_0_0_1_n_n : DotDims S7x7 S7x7 S7x7 where
  lhsContracting := [1]
  rhsContracting := [0]
  lhsNonContracting := [0]
  rhsNonContracting := [1]
  lhsBatch := []
  rhsBatch := []
  wf := dot_S7x7_S7x7_S7x7_1_0_0_1_n_n_wf

abbrev win0_0 : Pipeline.Window sig grid0 :=
  Pipeline.Window.ofSpec (Memref.whole main_arg0) S7x7.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S7x7.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S7x7.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S7x7.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S7x7.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S7x7.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S7x7.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S7x7.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S7x7 : Shape := ⟨2, ![7, 7]⟩
abbrev S_ : Shape := ⟨0, ![]⟩
abbrev S1 : Shape := ⟨1, ![1]⟩
abbrev S2 : Shape := ⟨1, ![2]⟩

abbrev nBuf : Space → Nat
  | .hbm => 23
  | .vmem => 0
  | .smem => 0
  | _ => 0

abbrev bufTy : (tb : Table) → Fin (tcTables nBuf tb) → BufTy
  | .hbm, ⟨0, _⟩ => ⟨S7x7, .f32⟩
  | .hbm, ⟨1, _⟩ => ⟨S7x7, .f32⟩
  | .hbm, ⟨2, _⟩ => ⟨S7x7, .f32⟩
  | .hbm, ⟨3, _⟩ => ⟨S7x7, .f32⟩
  | .hbm, ⟨4, _⟩ => ⟨S7x7, .f32⟩
  | .hbm, ⟨5, _⟩ => ⟨S7x7, .f32⟩
  | .hbm, ⟨6, _⟩ => ⟨S7x7, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S_, .f32⟩
  | .hbm, ⟨13, _⟩ => ⟨S7x7, .f32⟩
  | .hbm, ⟨14, _⟩ => ⟨S7x7, .f32⟩
  | .hbm, ⟨15, _⟩ => ⟨S7x7, .f32⟩
  | .hbm, ⟨16, _⟩ => ⟨S7x7, .f32⟩
  | .hbm, ⟨17, _⟩ => ⟨S7x7, .f32⟩
  | .hbm, ⟨18, _⟩ => ⟨S7x7, .f32⟩
  | .hbm, ⟨19, _⟩ => ⟨S7x7, .f32⟩
  | .hbm, ⟨20, _⟩ => ⟨S7x7, .f32⟩
  | .hbm, ⟨21, _⟩ => ⟨S7x7, .f32⟩
  | .hbm, ⟨22, _⟩ => ⟨S7x7, .f32⟩
  | _, _ => ⟨S7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_c_0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]

class Facts₀ : Prop where
  bcast_S_S1 : S_.BroadcastsInDim S1 (![] : Fin 0 → Fin S1.rank)
  concatenates_S1_S1_S2_d0 : Shape.Concatenates [S1, S1] S2 0
  scatter_S7x7_S2_S__n_01_01_0_wf : ScatterDims.WF S7x7 S2 S_ [] [0, 1] [0, 1] 0
  dot_S7x7_S7x7_S7x7_1_0_0_1_n_n_wf : DotDims.WF S7x7 S7x7 S7x7 [1] [0] [0] [1] [] []

variable [Facts₀]

def scatter_S7x7_S2_S__n_01_01_0 : ScatterDims S7x7 S2 S_ where
  updateWindowDims := []
  insertedWindowDims := [0, 1]
  scatterDimsToOperandDims := [0, 1]
  indexVectorDim := 0
  wf := scatter_S7x7_S2_S__n_01_01_0_wf
def dot_S7x7_S7x7_S7x7_1_0_0_1_n_n : DotDims S7x7 S7x7 S7x7 where
  lhsContracting := [1]
  rhsContracting := [0]
  lhsNonContracting := [0]
  rhsNonContracting := [1]
  lhsBatch := []
  rhsBatch := []
  wf := dot_S7x7_S7x7_S7x7_1_0_0_1_n_n_wf

class Facts : Prop extends Facts₀ where

variable [Facts]
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.CentreEntry.lean ====
/-
  One entry of a 7 × 7 array replaced by a given value, spelt in two ways.

  On the accelerator the replacement is a SELECT under a mask: the mask is true exactly where the row
  number and the column number (two iotas, one along each axis) both equal 1, and the select takes
  the new value there and the old array elsewhere. On the host it is a SCATTER of one scalar update
  at the index vector (1, 1), whose combiner returns the update: the one update lands at the entry
  (1, 1), inside the array, and every other entry is kept. Both are the function
      i ↦ if i = (1, 1) then v else x i.
  The host's index vector is itself computed: two one-element arrays, each the constant 1 broadcast,
  joined end to end; both of its words are 1.
-/
import Idealize.ShloMosaic.PureOps.Ideal
import Idealize.ShloMosaic.Lib.ValueIdx
import Idealize.ShloMosaic.Lib.Pipeline.Value

noncomputable section

namespace Cert.Bridge

open Idealize.ShloMosaic Idealize.ShloMosaic.ValueIdx

/-- The 7 × 7 arrays, the two-word index vector, the one-word pieces it is joined from, and scalars. -/
abbrev Sq : Shape := ⟨2, ![7, 7]⟩
abbrev Sv : Shape := ⟨1, ![2]⟩
abbrev Sw : Shape := ⟨1, ![1]⟩
abbrev Ss : Shape := ⟨0, ![]⟩

variable {α : Type}

/-! ## The index (1, 1) -/

/-- An index built from coordinates is (1, 1) exactly when both coordinates are 1. -/
theorem ix2_eq_mid (p q : Fin 7) : (ix2 p q : Sq.Idx) = ix2 1 1 ↔ p = 1 ∧ q = 1 :=
  ⟨fun h => ⟨congrFun h 0, congrFun h 1⟩, fun h => by rw [h.1, h.2]⟩

/-! ## The select under the mask "row = 1 and column = 1" -/

/-- At the index (p, q) the mask is the conjunction of two word comparisons, p against 1 and q
    against 1, of numbers below 7; it is decided entry by entry. -/
theorem mask_select_coords (h0 : Sq.Iotas .tc 32 [0]) (h1 : Sq.Iotas .tc 32 [1]) (a b : Sq.Idx → α) (p q : Fin 7) :
    select (andi (cmpi .eq (iota .tc Sq 32 [0] h0) (broadcast Sq 1#32)) (cmpi .eq (iota .tc Sq 32 [1] h1) (broadcast Sq 1#32))) a b (ix2 p q)
      = if p = 1 ∧ q = 1 then a (ix2 p q) else b (ix2 p q) := by
  rw [select_apply]
  unfold andi cmpi
  rw [iota_single_apply, iota_single_apply]
  simp only [broadcast_apply]
  fin_cases p <;> fin_cases q <;> rfl

/-- The select under that mask takes its first operand at (1, 1) and its second everywhere else. -/
theorem mask_select (h0 : Sq.Iotas .tc 32 [0]) (h1 : Sq.Iotas .tc 32 [1]) (a b : Sq.Idx → α) (i : Sq.Idx) :
    select (andi (cmpi .eq (iota .tc Sq 32 [0] h0) (broadcast Sq 1#32)) (cmpi .eq (iota .tc Sq 32 [1] h1) (broadcast Sq 1#32))) a b i
      = if i = ix2 1 1 then a i else b i := by
  obtain ⟨p, q, rfl⟩ : ∃ p q : Fin 7, i = ix2 p q := ⟨i 0, i 1, eq_ix2 i⟩
  rw [mask_select_coords h0 h1 a b p q]
  exact (if_congr (ix2_eq_mid p q) rfl rfl).symm

/-! ## The scatter of one scalar at a two-word index vector -/

/-- The scatter's dimension numbers: the update is a scalar (no window axes), both operand axes are
    inserted, word 0 of the index vector addresses axis 0 and word 1 axis 1. -/
abbrev setDims (wf : ScatterDims.WF Sq Sv Ss [] [0, 1] [0, 1] 0) : ScatterDims Sq Sv Ss where
  updateWindowDims := []
  insertedWindowDims := [0, 1]
  scatterDimsToOperandDims := [0, 1]
  indexVectorDim := 0
  wf := wf

/-- With both index words 1, the one update's target is (1, 1): the start is the index word on each
    axis, the window offset is 0 on each (both axes are inserted), and 1 is below the extent 7. -/
theorem target_mid (wf : ScatterDims.WF Sq Sv Ss [] [0, 1] [0, 1] 0) (idx : IVec Sv 32) (hidx : ∀ k, idx k = 1#32) (j : Ss.Idx) :
    (setDims wf).resultIdx? j idx = some (ix2 1 1) := by
  have hs : ∀ a : Fin 2, (setDims wf).start j idx a = 1 := by
    refine Fin.forall_fin_two.2 ⟨?_, ?_⟩
    · unfold ScatterDims.start
      split
      · rw [hidx]; rfl
      · rename_i h; exact absurd (show (0 : Fin 2) ∈ ([0, 1] : List (Fin 2)) by decide) h
    · unfold ScatterDims.start
      split
      · rw [hidx]; rfl
      · rename_i h; exact absurd (show (1 : Fin 2) ∈ ([0, 1] : List (Fin 2)) by decide) h
  have hw : ∀ a : Fin 2, (setDims wf).window j a = 0 := by
    refine Fin.forall_fin_two.2 ⟨?_, ?_⟩
    · unfold ScatterDims.window
      split
      · rename_i h; exact absurd h (show (0 : Fin 2) ∉ Sq.kept ([0, 1] : List (Fin 2)) by decide)
      · rfl
    · unfold ScatterDims.window
      split
      · rename_i h; exact absurd h (show (1 : Fin 2) ∉ Sq.kept ([0, 1] : List (Fin 2)) by decide)
      · rfl
  have hin : ∀ a : Fin 2, 0 ≤ (setDims wf).start j idx a + (setDims wf).window j a
      ∧ (setDims wf).start j idx a + (setDims wf).window j a < Sq.size a := by
    intro a
    rw [hs, hw]
    revert a
    exact Fin.forall_fin_two.2 ⟨by decide, by decide⟩
  unfold ScatterDims.resultIdx?
  rw [dif_pos hin]
  congr 1
  funext a
  apply Fin.ext
  show ((setDims wf).start j idx a + (setDims wf).window j a).toNat = _
  rw [hs, hw]
  revert a
  exact Fin.forall_fin_two.2 ⟨rfl, rfl⟩

/-- The scatter whose combiner returns the update, with both index words 1: the scalar update at
    (1, 1), the operand everywhere else. (The update array has one element, so the fold over the
    updates is one step.) -/
theorem scatter_mid (wf : ScatterDims.WF Sq Sv Ss [] [0, 1] [0, 1] 0) (x : Sq.Idx → α) (idx : IVec Sv 32) (hidx : ∀ k, idx k = 1#32)
    (upd : Ss.Idx → α) (i : Sq.Idx) :
    Host.scatter (setDims wf) (fun _ b => b) x idx upd i = if i = ix2 1 1 then upd ix0 else x i := by
  unfold Host.scatter
  have hn : List.finRange Ss.numel = [⟨0, by decide⟩] := by decide
  rw [hn]
  simp only [List.foldl_cons, List.foldl_nil]
  rw [target_mid wf idx hidx]
  simp only
  rw [eq_ix0 (Ss.rowMajor.symm _)]

/-! ## The index vector: two broadcast constants joined -/

/-- Two one-word arrays, each the scalar constant 1 broadcast, joined along their one axis: word 0
    comes from the first piece and word 1 from the second, and either piece holds 1 everywhere. -/
theorem joined_ones (hb : Ss.BroadcastsInDim Sw (![] : Fin 0 → Fin Sw.rank)) (hc : Shape.Concatenates [Sw, Sw] Sv 0) (k : Sv.Idx) :
    concatenate Sv 0 [⟨Sw, broadcastInDim Sw ![] hb (constantI Ss 32 1#32)⟩, ⟨Sw, broadcastInDim Sw ![] hb (constantI Ss 32 1#32)⟩] hc k = 1#32 := by
  obtain ⟨a, rfl⟩ : ∃ a : Fin 2, k = ix1 a := ⟨k 0, eq_ix1 k⟩
  revert a
  refine Fin.forall_fin_two.2 ⟨?_, ?_⟩
  · rw [concatenate_pair_apply_left (0 : Fin Sv.rank) _ _ hc (ix1 (0 : Fin 2)) rfl (ix1 (0 : Fin 1))
      (fun b => by match b with | ⟨0, _⟩ => rfl)]
    rfl
  · rw [concatenate_pair_apply_right (0 : Fin Sv.rank) _ _ hc (ix1 (1 : Fin 2)) rfl rfl (ix1 (0 : Fin 1))
      (fun b => by match b with | ⟨0, _⟩ => exact fun hne => absurd rfl hne) rfl]
    rfl

end Cert.Bridge

end
-- ==== Proof.CommonValue.lean ====
/-
  The common value of the two programs, index by index, on the extended reals.

  Seven 7 × 7 arrays x0 … x6 go in. Write x0' for x0 with its entry (1, 1) replaced by a constant v,
  and A · B for the matrix product, (A · B)[p, q] = ∑ k, A[p, k] * B[k, q]. Both programs compute
      x4 · x5 + x1 · x0' + x2 · x3 + x6 · x3 + x5 · x2,
  the five products added in this order from the left. The accelerator writes each product as a
  multiply-accumulate into the zero array and x0' as a select under a mask; the host writes each
  product as a general dot product and x0' as a scatter of one scalar. At the ideal instance a
  product of either spelling is the plain sum over the contracted index, so the two terms are the
  same function; nothing is reordered and no law of the extended reals is used beyond that.
-/
import Idealize.ShloMosaic.PureOps.Ideal
import Idealize.ShloMosaic.PureOps.Ideal.Laws
import Idealize.ShloMosaic.Lib.ValueIdx
import proofs.«169736_j39676907882997_1_alg».proof.Proof.LibDot2
import proofs.«169736_j39676907882997_1_alg».proof.Proof.CentreEntry

noncomputable section

open scoped BigOperators

namespace Cert.Bridge

open Idealize.ShloMosaic Idealize.ShloMosaic.ValueIdx Idealize.ShloMosaic.Dot2

/-- The constant both programs write at the entry (1, 1): the same 32-bit pattern on both sides, so
    its value as an extended real is never needed. -/
abbrev midWord : EReal := FloatOps.ofBits (F := Ideal) .f32 0x40490FDA#32

/-- The array x with its entry (1, 1) replaced by v. -/
def setMid (v : EReal) (x : Sq.Idx → EReal) : Sq.Idx → EReal := fun i => if i = ix2 1 1 then v else x i

/-- The entry (p, q) of the matrix product of l and r. -/
def mprod (l r : Sq.Idx → EReal) (p q : Fin 7) : EReal := ∑ k : Fin 7, l (ix2 p k) * r (ix2 k q)

/-- The sum of the five products, added from the left in the order both programs use. -/
def common (v : EReal) (x0 x1 x2 x3 x4 x5 x6 : Sq.Idx → EReal) : Sq.Idx → EReal := fun i =>
  mprod x4 x5 (i 0) (i 1) + mprod x1 (setMid v x0) (i 0) (i 1) + mprod x2 x3 (i 0) (i 1)
    + mprod x6 x3 (i 0) (i 1) + mprod x5 x2 (i 0) (i 1)

/-- The accelerator's term: five multiply-accumulates into zero, the second one's right operand the
    select under the mask, added from the left. It is the common value. -/
theorem kernel_value (wfd : DotDims.WF Sq Sq Sq [1] [0] [0] [1] [] []) (h0 : Sq.Iotas .tc 32 [0]) (h1 : Sq.Iotas .tc 32 [1])
    (x0 x1 x2 x3 x4 x5 x6 : FVec Ideal Sq .f32) :
    addf (addf (addf (addf (matmul (mmDims 7 7 7 wfd) none x4 x5 (constant Sq .f32 0x00000000#32))
        (matmul (mmDims 7 7 7 wfd) none x1
          (select (andi (cmpi .eq (iota .tc Sq 32 [0] h0) (broadcast Sq 1#32)) (cmpi .eq (iota .tc Sq 32 [1] h1) (broadcast Sq 1#32)))
            (broadcast Sq (Scalar.ofBits .f32 0x40490FDA#32)) x0)
          (constant Sq .f32 0x00000000#32)))
        (matmul (mmDims 7 7 7 wfd) none x2 x3 (constant Sq .f32 0x00000000#32)))
        (matmul (mmDims 7 7 7 wfd) none x6 x3 (constant Sq .f32 0x00000000#32)))
        (matmul (mmDims 7 7 7 wfd) none x5 x2 (constant Sq .f32 0x00000000#32))
      = common midWord x0 x1 x2 x3 x4 x5 x6 := by
  have hm : select (andi (cmpi .eq (iota .tc Sq 32 [0] h0) (broadcast Sq 1#32)) (cmpi .eq (iota .tc Sq 32 [1] h1) (broadcast Sq 1#32)))
      (broadcast Sq (Scalar.ofBits (F := Ideal) .f32 0x40490FDA#32)) x0
        = setMid (FloatOps.ofBits (F := Ideal) .f32 0x40490FDA#32) x0 :=
    funext fun i => (mask_select h0 h1 _ _ i).trans rfl
  rw [hm]
  funext i
  obtain ⟨p, q, rfl⟩ : ∃ p q : Fin 7, i = ix2 p q := ⟨i 0, i 1, eq_ix2 i⟩
  simp only [addf, matmul, Ideal.addf_def, matmul_zero_mm_apply]
  rfl

/-- The host's term: five general dot products, the second one's right operand the scatter of the
    scalar constant at an index vector whose words are both 1, added from the left. It is the common
    value. -/
theorem reference_value (wfd : DotDims.WF Sq Sq Sq [1] [0] [0] [1] [] []) (wfs : ScatterDims.WF Sq Sv Ss [] [0, 1] [0, 1] 0)
    (idx : IVec Sv 32) (hidx : ∀ k, idx k = 1#32) (x0 x1 x2 x3 x4 x5 x6 : FVec Ideal Sq .f32) :
    addf (addf (addf (addf (Host.dotGeneral (mmDims 7 7 7 wfd) none x4 x5)
        (Host.dotGeneral (mmDims 7 7 7 wfd) none x1
          (Host.scatter (setDims wfs) (fun _ b => b) x0 idx (constant Ss .f32 0x40490FDA#32))))
        (Host.dotGeneral (mmDims 7 7 7 wfd) none x2 x3))
        (Host.dotGeneral (mmDims 7 7 7 wfd) none x6 x3))
        (Host.dotGeneral (mmDims 7 7 7 wfd) none x5 x2)
      = common midWord x0 x1 x2 x3 x4 x5 x6 := by
  have hs : Host.scatter (setDims wfs) (fun _ b => b) x0 idx (constant (F := Ideal) Ss .f32 0x40490FDA#32)
      = setMid (FloatOps.ofBits (F := Ideal) .f32 0x40490FDA#32) x0 :=
    funext fun i => (scatter_mid wfs x0 idx hidx _ i).trans rfl
  rw [hs]
  funext i
  obtain ⟨p, q, rfl⟩ : ∃ p q : Fin 7, i = ix2 p q := ⟨i 0, i 1, eq_ix2 i⟩
  simp only [addf, Host.dotGeneral, Ideal.addf_def, dotGeneral_mm_apply]
  rfl

end Cert.Bridge

end
-- ==== Proof.KernelResult.lean ====
/-
  The accelerator program's result array, as one function of its argument arrays, at the ideal
  instance.

  The program is one launch over a grid of a single point. Each of the seven inputs is staged as ONE
  block that is the whole 7 × 7 array (the block index is (0, 0) and the block's extent the
  array's), so the body reads the arguments themselves; the body's one store writes the whole
  output block, and that block, written back at block index (0, 0), is the whole result array.
  What the body stores is five matrix products of the loaded arrays — the second one's right operand
  the first argument with its entry (1, 1) replaced by a constant — added from the left, which is the
  common value of the two programs. So after the run the result array is that value of the
  argument arrays as launched, and the arguments are unchanged.
-/
import proofs.«169736_j39676907882997_1_alg».proof.Proof.Gen.KernelIdeal.Value
import proofs.«169736_j39676907882997_1_alg».proof.Proof.CommonValue

set_option maxRecDepth 16384

noncomputable section

namespace Cert.KernelIdeal.Result

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the body stores, as a function of the seven loaded arrays: the common value. -/
theorem payload_eq (x0 x1 x2 x3 x4 x5 x6 : Vec Ideal S7x7 .f32) :
    k0_pay1 (F := Ideal) x0 x1 x2 x3 x4 x5 x6 = Cert.Bridge.common Cert.Bridge.midWord x0 x1 x2 x3 x4 x5 x6 :=
  Cert.Bridge.kernel_value Cert.KernelIdeal.Facts₀.dot_S7x7_S7x7_S7x7_1_0_0_1_n_n_wf
    Cert.KernelIdeal.Facts₀.iota_S7x7_d0_w32 Cert.KernelIdeal.Facts₀.iota_S7x7_d1_w32 x0 x1 x2 x3 x4 x5 x6

/-- Every window's block index is (0, 0) at the grid's one point. -/
theorem idx_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## Each input's block is the whole argument

An element (j0, j1) of a block with block index (b0, b1) and extent 7 × 7 sits at the array index
(b0 * 7 + j0, b1 * 7 + j1); with b0 = b1 = 0 that is (j0, j1) itself. -/

theorem block0 (c : Dev nD) (t : Fin cfg0.N) : (iblk m c 0 t : Vec Ideal S7x7 .f32) = V m c main_arg0 := by
  obtain ⟨e0, e1, -⟩ := idx_zero t
  funext j
  show V m c main_arg0 (((cfg0.win 0).blk t).view.emb j) = V m c main_arg0 j
  refine congrArg (V m c main_arg0) (funext fun a => Fin.ext ?_)
  match a with
  | ⟨0, _⟩ => show win0_0.index t (0 : Fin 2) * 7 + 1 * (j 0).val = (j 0).val; rw [e0]; omega
  | ⟨1, _⟩ => show win0_0.index t (1 : Fin 2) * 7 + 1 * (j 1).val = (j 1).val; rw [e1]; omega

theorem block1 (c : Dev nD) (t : Fin cfg0.N) : (iblk m c 1 t : Vec Ideal S7x7 .f32) = V m c main_arg1 := by
  obtain ⟨-, -, e0, e1, -⟩ := idx_zero t
  funext j
  show V m c main_arg1 (((cfg0.win 1).blk t).view.emb j) = V m c main_arg1 j
  refine congrArg (V m c main_arg1) (funext fun a => Fin.ext ?_)
  match a with
  | ⟨0, _⟩ => show win0_1.index t (0 : Fin 2) * 7 + 1 * (j 0).val = (j 0).val; rw [e0]; omega
  | ⟨1, _⟩ => show win0_1.index t (1 : Fin 2) * 7 + 1 * (j 1).val = (j 1).val; rw [e1]; omega

theorem block2 (c : Dev nD) (t : Fin cfg0.N) : (iblk m c 2 t : Vec Ideal S7x7 .f32) = V m c main_arg2 := by
  obtain ⟨-, -, -, -, e0, e1, -⟩ := idx_zero t
  funext j
  show V m c main_arg2 (((cfg0.win 2).blk t).view.emb j) = V m c main_arg2 j
  refine congrArg (V m c main_arg2) (funext fun a => Fin.ext ?_)
  match a with
  | ⟨0, _⟩ => show win0_2.index t (0 : Fin 2) * 7 + 1 * (j 0).val = (j 0).val; rw [e0]; omega
  | ⟨1, _⟩ => show win0_2.index t (1 : Fin 2) * 7 + 1 * (j 1).val = (j 1).val; rw [e1]; omega

theorem block3 (c : Dev nD) (t : Fin cfg0.N) : (iblk m c 3 t : Vec Ideal S7x7 .f32) = V m c main_arg3 := by
  obtain ⟨-, -, -, -, -, -, e0, e1, -⟩ := idx_zero t
  funext j
  show V m c main_arg3 (((cfg0.win 3).blk t).view.emb j) = V m c main_arg3 j
  refine congrArg (V m c main_arg3) (funext fun a => Fin.ext ?_)
  match a with
  | ⟨0, _⟩ => show win0_3.index t (0 : Fin 2) * 7 + 1 * (j 0).val = (j 0).val; rw [e0]; omega
  | ⟨1, _⟩ => show win0_3.index t (1 : Fin 2) * 7 + 1 * (j 1).val = (j 1).val; rw [e1]; omega

theorem block4 (c : Dev nD) (t : Fin cfg0.N) : (iblk m c 4 t : Vec Ideal S7x7 .f32) = V m c main_arg4 := by
  obtain ⟨-, -, -, -, -, -, -, -, e0, e1, -⟩ := idx_zero t
  funext j
  show V m c main_arg4 (((cfg0.win 4).blk t).view.emb j) = V m c main_arg4 j
  refine congrArg (V m c main_arg4) (funext fun a => Fin.ext ?_)
  match a with
  | ⟨0, _⟩ => show win0_4.index t (0 : Fin 2) * 7 + 1 * (j 0).val = (j 0).val; rw [e0]; omega
  | ⟨1, _⟩ => show win0_4.index t (1 : Fin 2) * 7 + 1 * (j 1).val = (j 1).val; rw [e1]; omega

theorem block5 (c : Dev nD) (t : Fin cfg0.N) : (iblk m c 5 t : Vec Ideal S7x7 .f32) = V m c main_arg5 := by
  obtain ⟨-, -, -, -, -, -, -, -, -, -, e0, e1, -⟩ := idx_zero t
  funext j
  show V m c main_arg5 (((cfg0.win 5).blk t).view.emb j) = V m c main_arg5 j
  refine congrArg (V m c main_arg5) (funext fun a => Fin.ext ?_)
  match a with
  | ⟨0, _⟩ => show win0_5.index t (0 : Fin 2) * 7 + 1 * (j 0).val = (j 0).val; rw [e0]; omega
  | ⟨1, _⟩ => show win0_5.index t (1 : Fin 2) * 7 + 1 * (j 1).val = (j 1).val; rw [e1]; omega

theorem block6 (c : Dev nD) (t : Fin cfg0.N) : (iblk m c 6 t : Vec Ideal S7x7 .f32) = V m c main_arg6 := by
  obtain ⟨-, -, -, -, -, -, -, -, -, -, -, -, e0, e1, -⟩ := idx_zero t
  funext j
  show V m c main_arg6 (((cfg0.win 6).blk t).view.emb j) = V m c main_arg6 j
  refine congrArg (V m c main_arg6) (funext fun a => Fin.ext ?_)
  match a with
  | ⟨0, _⟩ => show win0_6.index t (0 : Fin 2) * 7 + 1 * (j 0).val = (j 0).val; rw [e0]; omega
  | ⟨1, _⟩ => show win0_6.index t (1 : Fin 2) * 7 + 1 * (j 1).val = (j 1).val; rw [e1]; omega

/-! ## The result array -/

/-- The common value of the argument arrays as the launch finds them. -/
abbrev result (c : Dev nD) : Vec Ideal S7x7 .f32 :=
  Cert.Bridge.common Cert.Bridge.midWord (V m c main_arg0) (V m c main_arg1) (V m c main_arg2) (V m c main_arg3)
    (V m c main_arg4) (V m c main_arg5) (V m c main_arg6)

theorem hz : (![0, 0] : Fin 2 → Nat) = fun _ => 0 := funext fun a => by fin_cases a <;> rfl

/-- What the grid's point writes back is the output window's block of the common value: the body's
    one store covers its buffer, its payload is the common value of the loaded blocks, the loaded
    blocks are the arguments, and the output's block, at block index (0, 0), is read at the index
    itself. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S7x7) hz]
  rw [payload_eq, block0, block1, block2, block3, block4, block5, block6]
  obtain ⟨-, -, -, -, -, -, -, -, -, -, -, -, -, -, e0, e1⟩ := idx_zero t
  funext j
  show result m c j = result m c (((cfg0.win 7).blk t).view.emb j)
  refine congrArg (result m c) (funext fun a => Fin.ext ?_)
  match a with
  | ⟨0, _⟩ => show (j 0).val = win0_7.index t (0 : Fin 2) * 7 + 1 * (j 0).val; rw [e0]; omega
  | ⟨1, _⟩ => show (j 1).val = win0_7.index t (1 : Fin 2) * 7 + 1 * (j 1).val; rw [e1]; omega

/-- An index of the result array lies in a point's output block iff each coordinate is in the
    block's range on its axis. -/
theorem mem_block (t : Fin cfg0.N) (i : S7x7.Idx) :
    i ∈ ((cfg0.win 7).blk t).view.set ↔ ∀ a : Fin 2, win0_7.index t a * S7x7.size a ≤ (i a).val ∧ (i a).val < win0_7.index t a * S7x7.size a + S7x7.size a := by
  show i ∈ ((View.whole main_v0).slice (win0_7.rect t)).set ↔ _
  rw [View.set_slice_whole, Rect.mem_set_unit]
  exact Iff.rfl

/-- The result array after the run is the common value of the arguments as launched: the one point's
    block, from 0 to 7 on both axes, covers every index. -/
theorem final (c : Dev nD) : (dats m 0 c).arrAt 7 cfg0.N = result m c :=
  (dats m 0 c).arrAt_eq_of_cover 7 (result m c) (fun t _ => flushed_eq m c t) (fun i => by
    refine ⟨t0_0, flush0_7 t0_0, ?_⟩
    rw [mem_block]
    obtain ⟨-, -, -, -, -, -, -, -, -, -, -, -, -, -, e0, e1⟩ := idx_zero t0_0
    intro a
    match a with
    | ⟨0, _⟩ => show win0_7.index t0_0 (0 : Fin 2) * 7 ≤ (i 0).val ∧ (i 0).val < win0_7.index t0_0 (0 : Fin 2) * 7 + 7; have hi : (i 0).val < 7 := (i 0).isLt; rw [e0]; omega
    | ⟨1, _⟩ => show win0_7.index t0_0 (1 : Fin 2) * 7 ≤ (i 1).val ∧ (i 1).val < win0_7.index t0_0 (1 : Fin 2) * 7 + 7; have hi : (i 1).val < 7 := (i 1).isLt; rw [e1]; omega)

/-- The run: every weakly fair execution terminates with the result array at the common value of the
    arguments as launched and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Result

end
-- ==== Proof.ReferenceResult.lean ====
/-
  The host program's result array, as one function of its argument arrays, at the ideal instance.

  The program is a straight line of host operations: it builds the index vector (1, 1), scatters a
  scalar constant into the first argument there, takes five general dot products and adds them from
  the left. Its run ends with the result at that composed term of the arguments as launched; the term
  is the common value of the two programs: the index vector's words are both 1, so the scatter
  replaces the entry (1, 1), and a general dot product is the plain sum over the contracted index.
-/
import proofs.«169736_j39676907882997_1_alg».proof.Proof.Gen.ReferenceIdeal.Run
import proofs.«169736_j39676907882997_1_alg».proof.Proof.CommonValue

noncomputable section

namespace Cert.ReferenceIdeal.Result

open Cert.ReferenceIdeal Cert.ReferenceIdeal.Gen Idealize.ShloMosaic Idealize.ShloMosaic.TcCoe Idealize.SL.Sem Idealize.ShloMosaic.StableHlo

/-- The composed term of the host program's operations is the common value of its arguments. -/
theorem term_eq (x0 x1 x2 x3 x4 x5 x6 : FVec Ideal S7x7 .f32) :
    addf (addf (addf (addf (Host.dotGeneral dot_S7x7_S7x7_S7x7_1_0_0_1_n_n none x4 x5)
        (Host.dotGeneral dot_S7x7_S7x7_S7x7_1_0_0_1_n_n none x1
          (Host.scatter scatter_S7x7_S2_S__n_01_01_0 (fun _ b => b) x0
            (concatenate S2 0 [⟨S1, (broadcastInDim S1 ![] bcast_S_S1 (constantI S_ 32 1#32))⟩, ⟨S1, (broadcastInDim S1 ![] bcast_S_S1 (constantI S_ 32 1#32))⟩] concatenates_S1_S1_S2_d0)
            (constant S_ .f32 0x40490FDA#32))))
        (Host.dotGeneral dot_S7x7_S7x7_S7x7_1_0_0_1_n_n none x2 x3))
        (Host.dotGeneral dot_S7x7_S7x7_S7x7_1_0_0_1_n_n none x6 x3))
        (Host.dotGeneral dot_S7x7_S7x7_S7x7_1_0_0_1_n_n none x5 x2)
      = Cert.Bridge.common Cert.Bridge.midWord x0 x1 x2 x3 x4 x5 x6 :=
  Cert.Bridge.reference_value Cert.ReferenceIdeal.Facts₀.dot_S7x7_S7x7_S7x7_1_0_0_1_n_n_wf
    Cert.ReferenceIdeal.Facts₀.scatter_S7x7_S2_S__n_01_01_0_wf _
    (Cert.Bridge.joined_ones Cert.ReferenceIdeal.Facts₀.bcast_S_S1 Cert.ReferenceIdeal.Facts₀.concatenates_S1_S1_S2_d0)
    x0 x1 x2 x3 x4 x5 x6

end Cert.ReferenceIdeal.Result

end
-- ==== Proof.lean ====
/-
  The accelerator program and its host reference compute the same 7 × 7 array on the extended reals.

  Seven 7 × 7 arrays go in. Both programs replace the entry (1, 1) of the first by one and the same
  constant (the accelerator by a select under the mask "row = 1 and column = 1", the host by a
  scatter of a scalar at the index vector (1, 1)), take the same five matrix products of the same
  operands and add them in the same order from the left. At the ideal instance a product is the sum
  over the contracted index of the products of the entries, whether it is written as a
  multiply-accumulate into the zero array or as a general dot product, so both results are one
  function of the arguments (Proof/CommonValue.lean), read off the accelerator program's run in
  Proof/KernelResult.lean and off the host program's in Proof/ReferenceResult.lean. No summand is
  moved and nothing is cancelled, so the finiteness of the inputs is not used.
  The three frames are the runs themselves; the idealization rewrote no operation, so there is
  nothing to preserve.
-/
import proofs.«169736_j39676907882997_1_alg».proof.Defs
import proofs.«169736_j39676907882997_1_alg».proof.Proof.Gen.Kernel
import proofs.«169736_j39676907882997_1_alg».proof.Proof.Gen.Kernel.Skeleton
import proofs.«169736_j39676907882997_1_alg».proof.Proof.Gen.Kernel.Launch
import proofs.«169736_j39676907882997_1_alg».proof.Proof.Gen.Kernel.Points
import proofs.«169736_j39676907882997_1_alg».proof.Proof.Gen.Kernel.Frame
import proofs.«169736_j39676907882997_1_alg».proof.Proof.Gen.KernelIdeal
import proofs.«169736_j39676907882997_1_alg».proof.Proof.Gen.KernelIdeal.Skeleton
import proofs.«169736_j39676907882997_1_alg».proof.Proof.Gen.KernelIdeal.Launch
import proofs.«169736_j39676907882997_1_alg».proof.Proof.Gen.KernelIdeal.Points
import proofs.«169736_j39676907882997_1_alg».proof.Proof.Gen.KernelIdeal.Frame
import proofs.«169736_j39676907882997_1_alg».proof.Proof.Gen.ReferenceIdeal
import proofs.«169736_j39676907882997_1_alg».proof.Proof.Gen.Pre_finite_inputs
import proofs.«169736_j39676907882997_1_alg».proof.Proof.Gen.KernelIdeal.Value
import proofs.«169736_j39676907882997_1_alg».proof.Proof.Gen.ReferenceIdeal.Run
import proofs.«169736_j39676907882997_1_alg».proof.Proof.KernelResult
import proofs.«169736_j39676907882997_1_alg».proof.Proof.ReferenceResult
import Idealize.ShloMosaic.Adequacy
import Idealize.ShloMosaic.Init

noncomputable section

namespace Cert.Proof

open Idealize.ShloMosaic Idealize.ShloMosaic.TcCoe Idealize.SL.Sem

/-- The accelerator program as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The host program's run, its result dropped: it terminates and leaves its arguments as they were. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the seven arguments both programs end with the common value of those
    arguments in their result arrays. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1,
    (hagree c).2.2.2.2.2.1, (hagree c).2.2.2.2.2.2]
  exact Cert.ReferenceIdeal.Result.term_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
